-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x56x56x64 : Shape := ⟨4, ![4, 56, 56, 64]⟩
abbrev S64x128 : Shape := ⟨2, ![64, 128]⟩
abbrev S128 : Shape := ⟨1, ![128]⟩
abbrev S_ : Shape := ⟨0, ![]⟩

class Facts : Prop where
  bcast_S_S4x56x56x64 : S_.BroadcastsInDim S4x56x56x64 (![] : Fin 0 → Fin S4x56x56x64.rank)
  reducesTo_S4x56x56x64_S_d0_1_2_3 : S4x56x56x64.ReducesTo [0, 1, 2, 3] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S4x56x56x64 .f32) (main_arg1 : FVec F S64x128 .f32) (main_arg2 : FVec F S128 .f32) : IVec S_ 1 :=
  let main_v0 : FVec F S4x56x56x64 .f32 := Host.absf main_arg0
  let main_cst : FVec F S_ .f32 := constant S_ .f32 0x7F800000#32
  let main_v1 : FVec F S4x56x56x64 .f32 := broadcastInDim S4x56x56x64 ![] bcast_S_S4x56x56x64 main_cst
  let main_v2 : IVec S4x56x56x64 1 := cmpf .olt main_v0 main_v1
  let main_c : IVec S_ 1 := constantI S_ 1 1#1
  let main_v3 : IVec S_ 1 := (fun x v => Host.reduce IntOp.andi x v reducesTo_S4x56x56x64_S_d0_1_2_3 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S4x56x56x64 : Shape := ⟨4, ![4, 56, 56, 64]⟩
abbrev S64x128 : Shape := ⟨2, ![64, 128]⟩
abbrev S128 : Shape := ⟨1, ![128]⟩
abbrev S12544x64 : Shape := ⟨2, ![12544, 64]⟩
abbrev S12544x128 : Shape := ⟨2, ![12544, 128]⟩
abbrev S392x64 : Shape := ⟨2, ![392, 64]⟩
abbrev S392x128 : Shape := ⟨2, ![392, 128]⟩
abbrev S392x64x1 : Shape := ⟨3, ![392, 64, 1]⟩
abbrev S1x64x128 : Shape := ⟨3, ![1, 64, 128]⟩
abbrev S392x64x128 : Shape := ⟨3, ![392, 64, 128]⟩
abbrev S1x128 : Shape := ⟨2, ![1, 128]⟩
abbrev S4x3136x128 : Shape := ⟨3, ![4, 3136, 128]⟩

abbrev nBuf : Space → Nat
  | .hbm => 6
  | .vmem => 6
  | .smem => 0
  | _ => 0

abbrev bufTy : (tb : Table) → Fin (tcTables nBuf tb) → BufTy
  | .hbm, ⟨0, _⟩ => ⟨S4x56x56x64, .f32⟩
  | .hbm, ⟨1, _⟩ => ⟨S64x128, .f32⟩
  | .hbm, ⟨2, _⟩ => ⟨S128, .f32⟩
  | .hbm, ⟨3, _⟩ => ⟨S12544x64, .f32⟩
  | .hbm, ⟨4, _⟩ => ⟨S12544x128, .f32⟩
  | .hbm, ⟨5, _⟩ => ⟨S4x3136x128, .f32⟩
  | .local _ .vmem, ⟨0, _⟩ => ⟨S392x64, .f32⟩
  | .local _ .vmem, ⟨1, _⟩ => ⟨S392x64, .f32⟩
  | .local _ .vmem, ⟨2, _⟩ => ⟨S64x128, .f32⟩
  | .local _ .vmem, ⟨3, _⟩ => ⟨S128, .f32⟩
  | .local _ .vmem, ⟨4, _⟩ => ⟨S392x128, .f32⟩
  | .local _ .vmem, ⟨5, _⟩ => ⟨S392x128, .f32⟩
  | _, _ => ⟨S4x56x56x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S392x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S392x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x56x56x64_S12544x64 : S4x56x56x64.ShapeCasts S12544x64
  inb_S392x64_S392x64_0_0 : ∀ a, (![0, 0] : Fin 2 → Nat) a + S392x64.size a ≤ S392x64.size a
  h_S392x64 : 0 < S392x64.numel
  shapeCasts_S392x64_S392x64 : S392x64.ShapeCasts S392x64
  inb_S64x128_S64x128_0_0 : ∀ a, (![0, 0] : Fin 2 → Nat) a + S64x128.size a ≤ S64x128.size a
  h_S64x128 : 0 < S64x128.numel
  shapeCasts_S392x64_S392x64x1 : S392x64.ShapeCasts S392x64x1
  shapeCasts_S64x128_S1x64x128 : S64x128.ShapeCasts S1x64x128
  broadcasts_S392x64x1_S392x64x128 : S392x64x1.Broadcasts S392x64x128
  broadcasts_S1x64x128_S392x64x128 : S1x64x128.Broadcasts S392x64x128
  reduces_S392x64x128_S392x128 : S392x64x128.Reduces [1] S392x128
  inb_S128_S128_0 : ∀ a, (![0] : Fin 1 → Nat) a + S128.size a ≤ S128.size a
  h_S128 : 0 < S128.numel
  shapeCasts_S128_S1x128 : S128.ShapeCasts S1x128
  broadcasts_S1x128_S392x128 : S1x128.Broadcasts S392x128
  inb_S392x128_S392x128_0_0 : ∀ a, (![0, 0] : Fin 2 → Nat) a + S392x128.size a ≤ S392x128.size a
  h_S392x128 : 0 < S392x128.numel
  shapeCasts_S12544x128_S4x3136x128 : S12544x128.ShapeCasts S4x3136x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S392x64.size a ≤ S12544x64.size a
  hwx0_0 : ∀ i : grid0.Coords, EltTy.bits .f32 = 32 ∨ (Rect.block (s := S12544x64) S392x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S392x128.size a ≤ S12544x128.size a
  hwx0_3 : ∀ i : grid0.Coords, EltTy.bits .f32 = 32 ∨ (Rect.block (s := S12544x128) S392x128.size (cc0_transform_3 i) (hinb0_3 i)).WholeWords (EltTy.packing .f32)

variable [Facts₀]

abbrev win0_0 : Pipeline.Window sig grid0 :=
  Pipeline.Window.ofSpec (Memref.whole main_v0) S392x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S392x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x56x56x64 : Shape := ⟨4, ![4, 56, 56, 64]⟩
abbrev S64x128 : Shape := ⟨2, ![64, 128]⟩
abbrev S128 : Shape := ⟨1, ![128]⟩
abbrev S4x3136x64 : Shape := ⟨3, ![4, 3136, 64]⟩
abbrev S4x3136x64x1 : Shape := ⟨4, ![4, 3136, 64, 1]⟩
abbrev S1x1x64x128 : Shape := ⟨4, ![1, 1, 64, 128]⟩
abbrev S4x3136x64x128 : Shape := ⟨4, ![4, 3136, 64, 128]⟩
abbrev S_ : Shape := ⟨0, ![]⟩
abbrev S4x3136x128 : Shape := ⟨3, ![4, 3136, 128]⟩
abbrev S1x1x128 : Shape := ⟨3, ![1, 1, 128]⟩

abbrev nBuf : Space → Nat
  | .hbm => 15
  | .vmem => 0
  | .smem => 0
  | _ => 0

abbrev bufTy : (tb : Table) → Fin (tcTables nBuf tb) → BufTy
  | .hbm, ⟨0, _⟩ => ⟨S4x56x56x64, .f32⟩
  | .hbm, ⟨1, _⟩ => ⟨S64x128, .f32⟩
  | .hbm, ⟨2, _⟩ => ⟨S128, .f32⟩
  | .hbm, ⟨3, _⟩ => ⟨S4x3136x64, .f32⟩
  | .hbm, ⟨4, _⟩ => ⟨S4x3136x64x1, .f32⟩
  | .hbm, ⟨5, _⟩ => ⟨S1x1x64x128, .f32⟩
  | .hbm, ⟨6, _⟩ => ⟨S4x3136x64x128, .f32⟩
  | .hbm, ⟨7, _⟩ => ⟨S4x3136x64x128, .f32⟩
  | .hbm, ⟨8, _⟩ => ⟨S4x3136x64x128, .f32⟩
  | .hbm, ⟨9, _⟩ => ⟨S4x3136x64x128, .f32⟩
  | .hbm, ⟨10, _⟩ => ⟨S_, .f32⟩
  | .hbm, ⟨11, _⟩ => ⟨S4x3136x128, .f32⟩
  | .hbm, ⟨12, _⟩ => ⟨S1x1x128, .f32⟩
  | .hbm, ⟨13, _⟩ => ⟨S4x3136x128, .f32⟩
  | .hbm, ⟨14, _⟩ => ⟨S4x3136x128, .f32⟩
  | _, _ => ⟨S4x56x56x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  shapeCasts_S4x56x56x64_S4x3136x64 : S4x56x56x64.ShapeCasts S4x3136x64
  bcast_S4x3136x64_S4x3136x64x1_0_1_2 : S4x3136x64.BroadcastsInDim S4x3136x64x1 (![0, 1, 2] : Fin 3 → Fin S4x3136x64x1.rank)
  bcast_S64x128_S1x1x64x128_2_3 : S64x128.BroadcastsInDim S1x1x64x128 (![2, 3] : Fin 2 → Fin S1x1x64x128.rank)
  bcast_S4x3136x64x1_S4x3136x64x128_0_1_2_3 : S4x3136x64x1.BroadcastsInDim S4x3136x64x128 (![0, 1, 2, 3] : Fin 4 → Fin S4x3136x64x128.rank)
  bcast_S1x1x64x128_S4x3136x64x128_0_1_2_3 : S1x1x64x128.BroadcastsInDim S4x3136x64x128 (![0, 1, 2, 3] : Fin 4 → Fin S4x3136x64x128.rank)
  reducesTo_S4x3136x64x128_S4x3136x128_d2 : S4x3136x64x128.ReducesTo [2] S4x3136x128
  h_S_ : 0 < S_.numel
  bcast_S128_S1x1x128_2 : S128.BroadcastsInDim S1x1x128 (![2] : Fin 1 → Fin S1x1x128.rank)
  bcast_S1x1x128_S4x3136x128_0_1_2 : S1x1x128.BroadcastsInDim S4x3136x128 (![0, 1, 2] : Fin 3 → Fin S4x3136x128.rank)

variable [Facts₀]

class Facts : Prop extends Facts₀ where

variable [Facts]
-- ==== Proof.LibMiddleAxis.lean ====
/-
  Rank-3 forms met when a row vector and a matrix are laid against one another to be combined entry by entry and
  then summed over the shared axis: an [a, b] array given a trailing unit axis, [a, b, 1], and spread over a third
  axis, [a, b, c]; a [1, b, c] array spread over a new leading axis, [a, b, c]; and the sum of an [a, b, c] array over
  its MIDDLE axis, read at an entry of the [a, c] result as the finite sum over that axis's coordinates. Each is stated
  at coordinates, generic in the three sizes.
-/
import Idealize.ShloMosaic.Lib.Pipeline.Value
import Idealize.ShloMosaic.Lib.ValueIdx
import Idealize.ShloMosaic.PureOps.Ideal.Laws

namespace Cert.LibMiddleAxis

open Idealize.ShloMosaic Idealize.ShloMosaic.ValueIdx

variable {α : Type}

/-- An `[a, b]` array cast to `[a, b, 1]` reads, at `(i, j, u)`, the operand at `(i, j)`: the row-major position
    `(i·b + j)·1 + u` is `i·b + j`, the unit coordinate being zero. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`: the first two
    coordinates are kept (on an axis of size one they are zero already) and the unit axis is read at zero. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- A `[1, b, c]` array broadcast to `[a, b, c]` reads, at `(i, j, k)`, the operand's one slab at `(j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ =>
    show (0 : ℕ) = if (1 : ℕ) = 1 then 0 else i.val
    rw [if_pos rfl]
  | ⟨1, _⟩ =>
    show j.val = if b = 1 then 0 else j.val
    split
    · have := j.isLt; omega
    · rfl
  | ⟨2, _⟩ =>
    show k.val = if c = 1 then 0 else k.val
    split
    · have := k.isLt; omega
    · rfl

/-- On the extended reals, the add-reduction of an `[a, b, c]` array over its middle axis, from the neutral
    accumulator, is at `(i, k)` the sum over `j` of the entries `(i, j, k)`: the coordinate the reduction drops is put
    back between the two kept ones. -/
theorem sum_middle_apply {φ : FTy} {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) := by
  refine (Ideal.multiReduction_add_single src acc h hφ hacc (ix2 i k)).trans ?_
  refine Finset.sum_congr rfl fun j _ => congrArg src (funext fun ax => Fin.ext ?_)
  match ax with
  | ⟨0, _⟩ => rfl
  | ⟨1, _⟩ => rfl
  | ⟨2, _⟩ => rfl

end Cert.LibMiddleAxis
-- ==== Proof.Spec.lean ====
/-
  The function both programs compute, on the extended reals.

  Flatten the input `x` (4 × 56 × 56 × 64) to 12544 rows of 64 entries. For row n and column q of the table `w`
  (64 × 128),
      rowDist xf w b (n, q) = Σ_k |xf[n, k] − w[k, q]| + b[q],
  the L1 distance from the row to the column, offset by b[q]. The result is that 12544 × 128 array read in the shape
  4 × 3136 × 128: the same entries in the same row-major order.
-/
import proofs.«170642_j31138512896692_1_alg».proof.KernelIdeal
import Idealize.ShloMosaic.Lib.ValueIdx
import Idealize.ShloMosaic.PureOps.Ideal

noncomputable section

namespace Cert.L1Distance

open Idealize.ShloMosaic Idealize.ShloMosaic.ValueIdx Cert.KernelIdeal

/-- Row n against column q: the sum over the 64 shared coordinates of the absolute differences, plus the column's
    offset. -/
def rowDist (xf : Vec Ideal S12544x64 .f32) (w : Vec Ideal S64x128 .f32) (b : Vec Ideal S128 .f32) :
    Vec Ideal S12544x128 .f32 :=
  fun i => (∑ k : Fin 64, FloatOps.absf (F := Ideal) (φ := .f32) (xf (ix2 (i 0) k) - w (ix2 k (i 1)))) + b (ix1 (i 1))

/-- The whole result: the rows of the flattened input against the table, read back as 4 × 3136 × 128. -/
def l1Out (hx : S4x56x56x64.ShapeCasts S12544x64) (ho : S12544x128.ShapeCasts S4x3136x128)
    (x : Vec Ideal S4x56x56x64 .f32) (w : Vec Ideal S64x128 .f32) (b : Vec Ideal S128 .f32) :
    Vec Ideal S4x3136x128 .f32 :=
  shapeCast S4x3136x128 (rowDist (shapeCast S12544x64 x hx) w b) ho

/-- `rowDist` at coordinates. -/
theorem rowDist_apply (xf : Vec Ideal S12544x64 .f32) (w : Vec Ideal S64x128 .f32) (b : Vec Ideal S128 .f32)
    (n : Fin 12544) (q : Fin 128) :
    rowDist xf w b (ix2 n q)
      = (∑ k : Fin 64, FloatOps.absf (F := Ideal) (φ := .f32) (xf (ix2 n k) - w (ix2 k q))) + b (ix1 q) := rfl

end Cert.L1Distance

end
-- ==== Proof.BlockValue.lean ====
/-
  What the kernel body computes on one block, entry by entry, on the extended reals. The body takes a block of 392
  rows `x` (392 × 64), the whole table `w` (64 × 128) and the offsets `b` (128); it lays `x` along a trailing
  unit axis and `w` along a leading one, spreads both to 392 × 64 × 128, subtracts, takes absolute values, sums the
  middle axis and adds `b` spread over the rows. So the entry (p, q) of its result is
      Σ_k |x[p, k] − w[k, q]|  +  b[q],
  the L1 distance from row p of the block to column q of the table, offset by b[q].
-/
import proofs.«170642_j31138512896692_1_alg».proof.Proof.Gen.KernelIdeal.Skeleton
import proofs.«170642_j31138512896692_1_alg».proof.Proof.LibMiddleAxis
import proofs.«170642_j31138512896692_1_alg».proof.Proof.Spec
import Idealize.ShloMosaic.Lib.ValueLayout

noncomputable section

namespace Cert.L1Distance

open Idealize.ShloMosaic Idealize.ShloMosaic.ValueIdx Cert.KernelIdeal Cert.KernelIdeal.Gen Cert.LibMiddleAxis

/-- Entry (p, q) of the body's stored value: the sum over the 64 shared coordinates of the absolute differences
    between row p of the block and column q of the table, plus the offset of column q. -/
theorem payload_apply (x : Vec Ideal S392x64 .f32) (w : Vec Ideal S64x128 .f32) (b : Vec Ideal S128 .f32)
    (p : Fin 392) (q : Fin 128) :
    k0_pay1 (F := Ideal) x w b (ix2 p q)
      = (∑ k : Fin 64, FloatOps.absf (F := Ideal) (φ := .f32) (x (ix2 p k) - w (ix2 k q))) + b (ix1 q) := by
  unfold k0_pay1
  dsimp only
  rw [addf_apply, broadcastTo_1b_ab_apply, shapeCast_a_1a_apply]
  refine congrArg (· + b (ix1 q)) ?_
  refine (sum_middle_apply _ _ _ _ _ p q).trans ?_
  refine Finset.sum_congr rfl fun k _ => ?_
  show FloatOps.absf (F := Ideal) (φ := .f32) (broadcastTo S392x64x128 _ _ (ix3 p k q) - broadcastTo S392x64x128 _ _ (ix3 p k q)) = _
  rw [broadcastTo_ab1_abc_apply, broadcastTo_1bc_abc_apply, shapeCast_ab_ab1_apply, shapeCast_ab_1ab_apply, shapeCast_self]

/-- A block whose row p is row n of the flattened input, beside the whole table and the whole offsets, has at
    (p, q) the entry (n, q) of `rowDist`: the body never looks at another row. Stated for any index `y` of the block
    and any index `i` of the array whose coordinates are so related. -/
theorem block_entry (x0 : Vec Ideal S392x64 .f32) (x1 : Vec Ideal S64x128 .f32) (x2 : Vec Ideal S128 .f32)
    (xf : Vec Ideal S12544x64 .f32) (w : Vec Ideal S64x128 .f32) (b : Vec Ideal S128 .f32)
    (i : S12544x128.Idx) (y : S392x128.Idx)
    (hrow : ∀ k : Fin 64, x0 (ix2 (y 0) k) = xf (ix2 (i 0) k)) (hw : x1 = w) (hb : x2 = b)
    (hcol : (i 1).val = (y 1).val) :
    k0_pay1 (F := Ideal) x0 x1 x2 y = rowDist xf w b i := by
  obtain ⟨p, q, rfl⟩ : ∃ (p : Fin 392) (q : Fin 128), y = ix2 p q := ⟨y 0, y 1, eq_ix2 y⟩
  obtain ⟨n, q', rfl⟩ : ∃ (n : Fin 12544) (q' : Fin 128), i = ix2 n q' := ⟨i 0, i 1, eq_ix2 i⟩
  have hq : q' = q := Fin.ext hcol
  have hrow' : ∀ k : Fin 64, x0 (ix2 p k) = xf (ix2 n k) := hrow
  subst hq hw hb
  rw [payload_apply, rowDist_apply]
  simp only [hrow']

end Cert.L1Distance

end
-- ==== Proof.ArrayValue.lean ====
/-
  From blocks to the kernel's result. The grid has 32 points; point t stages rows 392·t … 392·t + 391 of the
  flattened input beside the whole table and the whole offsets, and writes back rows 392·t … 392·t + 391 of the
  12544 × 128 output. By `block_entry` what it writes back is those rows of `rowDist`; the 32 blocks cover every row
  (row n lies in block n / 392), so the output array ends as `rowDist` of the flattened input. The flattening is the
  one host operation before the region and the read-back in the shape 4 × 3136 × 128 the one after it, so the program's
  result is `l1Out` of its three arguments, which it leaves unchanged.
-/
import proofs.«170642_j31138512896692_1_alg».proof.Proof.Gen.KernelIdeal.Frame
import proofs.«170642_j31138512896692_1_alg».proof.Proof.BlockValue
import Idealize.ShloMosaic.Lib.Pipeline.Value
import Idealize.ShloMosaic.Lib.StableHlo.Run

set_option maxRecDepth 16384

noncomputable section

namespace Cert.L1Distance

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

theorem origin2 : (![0, 0] : Fin 2 → Nat) = fun _ => 0 := funext fun a => by fin_cases a <;> rfl
theorem origin1 : (![0] : Fin 1 → Nat) = fun _ => 0 := funext fun a => by fin_cases a <;> rfl

/-- The index maps over the grid: the input block moves with the output block along the rows and both sit at
    column block zero; the table and the offsets stay at block zero; the output's row block is the point itself. -/
theorem index_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = t.val
    ∧ win0_3.index t (1 : Fin 2) = 0 :=
  (by decide +kernel : ∀ t : Fin grid0.N, _)

/-- What point `t` writes back is block `t` of `rowDist` of the arrays as the region finds them. -/
theorem flushed_eq (c : Dev nD) (t : Fin cfg0.N) :
    (dats m 0 c).flushed 3 t
      = ((cfg0.win 3).blk t).view.read (Elt Ideal) (rowDist (V m c main_v0) (V m c main_arg1) (V m c main_arg2)) := by
  show (cfg0.win 3).cut (grid0.coords t) ((dats m 0 c).after 3 t) = _
  rw [after0_3]
  unfold out0_3
  rw [View.canon_unit_zero origin2]
  simp only [View.ld_unit_zero (S := S392x64) origin2, View.ld_unit_zero (S := S64x128) origin2,
    View.ld_unit_zero (S := S128) origin1]
  obtain ⟨e0, e1, e2, e3, e4, e5, e6⟩ := index_facts t
  funext j
  show k0_pay1 (F := Ideal) (iblk m c 0 t) (iblk m c 1 t) (iblk m c 2 t) j
    = rowDist (V m c main_v0) (V m c main_arg1) (V m c main_arg2) (((cfg0.win 3).blk t).view.emb j)
  refine block_entry (iblk m c 0 t) (iblk m c 1 t) (iblk m c 2 t) (V m c main_v0) (V m c main_arg1) (V m c main_arg2)
    (((cfg0.win 3).blk t).view.emb j) j ?_ ?_ ?_ ?_
  · intro k
    show V m c main_v0 (((cfg0.win 0).blk t).view.emb (ix2 (j 0) k))
      = V m c main_v0 (ix2 ((((cfg0.win 3).blk t).view.emb j) 0) k)
    refine congrArg (V m c main_v0) (funext fun a => Fin.ext ?_)
    match a with
    | ⟨0, _⟩ =>
      show win0_0.index t (0 : Fin 2) * 392 + 1 * (j 0).val = win0_3.index t (0 : Fin 2) * 392 + 1 * (j 0).val
      omega
    | ⟨1, _⟩ =>
      show win0_0.index t (1 : Fin 2) * 64 + 1 * k.val = k.val
      omega
  · funext y
    show V m c main_arg1 (((cfg0.win 1).blk t).view.emb y) = V m c main_arg1 y
    refine congrArg (V m c main_arg1) (funext fun a => Fin.ext ?_)
    match a with
    | ⟨0, _⟩ =>
      show win0_1.index t (0 : Fin 2) * 64 + 1 * (y 0).val = (y 0).val
      omega
    | ⟨1, _⟩ =>
      show win0_1.index t (1 : Fin 2) * 128 + 1 * (y 1).val = (y 1).val
      omega
  · funext y
    show V m c main_arg2 (((cfg0.win 2).blk t).view.emb y) = V m c main_arg2 y
    refine congrArg (V m c main_arg2) (funext fun a => Fin.ext ?_)
    match a with
    | ⟨0, _⟩ =>
      show win0_2.index t (0 : Fin 1) * 128 + 1 * (y 0).val = (y 0).val
      omega
  · show win0_3.index t (1 : Fin 2) * 128 + 1 * (j 1).val = (j 1).val
    omega

/-- An index of the output array is in point `t`'s block iff each coordinate is in the block's range on its axis. -/
theorem mem_block (t : Fin cfg0.N) (i : S12544x128.Idx) :
    i ∈ ((cfg0.win 3).blk t).view.set ↔ ∀ a : Fin 2, win0_3.index t a * S392x128.size a ≤ (i a).val
      ∧ (i a).val < win0_3.index t a * S392x128.size a + S392x128.size a := by
  show i ∈ ((View.whole main_v1).slice (win0_3.rect t)).set ↔ _
  rw [View.set_slice_whole, Rect.mem_set_unit]
  exact Iff.rfl

/-- Every entry of the output array is written back by some point: row n by point n / 392. -/
theorem covered (i : S12544x128.Idx) :
    ∃ t : Fin cfg0.N, (cfg0.win 3).flush t = true ∧ i ∈ ((cfg0.win 3).blk t).view.set := by
  have hi0 : (i 0).val < 12544 := (i 0).isLt
  have hi1 : (i 1).val < 128 := (i 1).isLt
  have hN : cfg0.N = 32 := N_0
  let t : Fin cfg0.N := ⟨(i 0).val / 392, by rw [hN]; omega⟩
  obtain ⟨-, -, -, -, -, e5, e6⟩ := index_facts t
  have e5' : win0_3.index t (0 : Fin 2) = (i 0).val / 392 := e5
  refine ⟨t, flush0_3 t, ?_⟩
  rw [mem_block]
  intro a
  match a with
  | ⟨0, _⟩ =>
    show win0_3.index t (0 : Fin 2) * 392 ≤ (i 0).val ∧ (i 0).val < win0_3.index t (0 : Fin 2) * 392 + 392
    omega
  | ⟨1, _⟩ =>
    show win0_3.index t (1 : Fin 2) * 128 ≤ (i 1).val ∧ (i 1).val < win0_3.index t (1 : Fin 2) * 128 + 128
    omega

/-- The output array after the region. -/
theorem final (c : Dev nD) :
    (dats m 0 c).arrAt 3 cfg0.N = rowDist (V m c main_v0) (V m c main_arg1) (V m c main_arg2) :=
  (dats m 0 c).arrAt_eq_of_cover 3 _ (fun t _ => flushed_eq m c t) covered

/-- The region finds, as its first array, the input flattened to 12544 rows: the host operation before it. -/
theorem entry_rows (c : Dev nD) :
    V m c main_v0 = shapeCast S12544x64 (m ((c : Thread nD τ).loc main_arg0)) shapeCasts_S4x56x56x64_S12544x64 := by
  show StableHlo.after hostOps0 (fun b => m (c, b)) (Proc.devRef .tc main_v0) = _
  after_results
  rfl

/-- The program's result buffer after the host operation that follows the region: the output array read back in
    the shape 4 × 3136 × 128. -/
theorem tail_eq (c : Dev nD) :
    Pipeline.afterTail₀ cfgs (dats m) 0 (V0 m) [hostOps1] c main_v2
      = shapeCast S4x3136x128 ((dats m 0 c).arrAt 3 cfg0.N) shapeCasts_S12544x128_S4x3136x128 := by
  unfold Pipeline.afterTail₀
  show StableHlo.after hostOps1 _ (Proc.devRef .tc main_v2) = _
  after_results
  exact congrArg (fun A => shapeCast S4x3136x128 A shapeCasts_S12544x128_S4x3136x128)
    (Pipeline.withArrays_arr spec0 launch0.win.arr_inj c _ _ 3)

/-- THE KERNEL'S RUN, READ: every weakly fair execution ends with the result buffer at the specification of the three
    arguments as launched, and the arguments unchanged. -/
theorem kernel_run : θ_run defs (onTc (τ := τ) (main (F := Ideal))) ⟨m, fun _ => 0, ρ⟩ (fun r => ∀ c : Dev nD,
      r.2.mem ((c.tc : Thread nD τ).loc main_v2)
        = l1Out shapeCasts_S4x56x56x64_S12544x64 shapeCasts_S12544x128_S4x3136x128
            (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v2 (Pipeline.mem_restRefs_of main_v2 (by decide) (by decide))).trans ((tail_eq m c).trans (by
        rw [final m c, entry_rows m c, V_main_arg1 m c, V_main_arg2 m c]; rfl)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.L1Distance

end
-- ==== Proof.RefValue.lean ====
/-
  The reference computes the specification. Its program reshapes `x` to 4 × 3136 × 64, spreads it and the table to
  4 × 3136 × 64 × 128, subtracts, takes absolute values, sums the third axis from zero and adds the offsets spread over
  the first two axes. At the entry (a, r, q) that is
      (0 + Σ_k |x⟨a, r, k⟩ − w[k, q]|) + b[q],
  where x⟨a, r, k⟩ is the entry of `x` at row-major position (a·3136 + r)·64 + k. The specification reads the
  12544 × 128 array `rowDist` at row-major position (a·3136 + r)·128 + q, which is row n = a·3136 + r and column q,
  and row n of the flattened input at k is the entry of `x` at position n·64 + k: the same entry. The leading zero is
  the neutral element of the sum.
-/
import proofs.«170642_j31138512896692_1_alg».proof.Proof.Gen.ReferenceIdeal.Read
import proofs.«170642_j31138512896692_1_alg».proof.Proof.Spec
import Idealize.ShloMosaic.Lib.ValueIdx
import Idealize.ShloMosaic.Lib.Pipeline.Value
import Idealize.ShloMosaic.PureOps.Ideal.Laws

noncomputable section

namespace Cert.L1Distance

open Idealize.ShloMosaic Idealize.ShloMosaic.ValueIdx Cert.ReferenceIdeal Cert.ReferenceIdeal.Read

/-- The reference's last stage, as a function of the three arguments, is the specification. -/
theorem reference_eq (hx : Cert.KernelIdeal.S4x56x56x64.ShapeCasts Cert.KernelIdeal.S12544x64)
    (ho : Cert.KernelIdeal.S12544x128.ShapeCasts Cert.KernelIdeal.S4x3136x128)
    (x : Vec Ideal S4x56x56x64 .f32) (w : Vec Ideal S64x128 .f32) (b : Vec Ideal S128 .f32) :
    val_main_v10 (F := Ideal) x w b = l1Out hx ho x w b := by
  funext i
  obtain ⟨a, r, q, rfl⟩ : ∃ (a : Fin 4) (r : Fin 3136) (q : Fin 128), i = ix3 a r q := ⟨i 0, i 1, i 2, eq_ix3 i⟩
  have ha : a.val < 4 := a.isLt
  have hr : r.val < 3136 := r.isLt
  -- the row of the flattened input that the entry (a, r, ·) reads
  let n : Fin 12544 := ⟨a.val * 3136 + r.val, by omega⟩
  -- the table's entry, the offsets' entry, the input's entry: the composed index maps at coordinates
  have hw : ∀ k : Fin 64, idx_main_v2 (idx_main_v4 (idx_main_v7 (ix3 a r q) k)) = ix2 k q := fun k =>
    funext fun ax => Fin.ext (by match ax with | ⟨0, _⟩ => rfl | ⟨1, _⟩ => rfl)
  have hb : idx_main_v8 (idx_main_v9 (ix3 a r q)) = ix1 q :=
    funext fun ax => Fin.ext (by match ax with | ⟨0, _⟩ => rfl)
  have hxk : ∀ k : Fin 64, x (idx_main_v0 (idx_main_v1 (idx_main_v3 (idx_main_v7 (ix3 a r q) k))))
      = shapeCast Cert.KernelIdeal.S12544x64 x hx (ix2 n k) := fun k =>
    (shapeCast_apply x hx (ix2 n k) _ (by
      have hk : k.val < 64 := k.isLt
      rw [Shape.rowMajor_val_four, Shape.rowMajor_val_two]
      show ((((a.val * 3136 + r.val) * 64 + k.val) / 200704 * 56 + ((a.val * 3136 + r.val) * 64 + k.val) / 3584 % 56) * 56 + ((a.val * 3136 + r.val) * 64 + k.val) / 64 % 56) * 64 + ((a.val * 3136 + r.val) * 64 + k.val) % 64
        = (a.val * 3136 + r.val) * 64 + k.val
      omega)).symm
  rw [val_main_v10_apply, val_main_v7_apply, val_main_v9_apply, val_main_v8_apply, val_main_cst_apply]
  simp only [val_main_v6_apply, val_main_v5_apply, val_main_v3_apply, val_main_v1_apply, val_main_v0_apply,
    val_main_v4_apply, val_main_v2_apply, hw, hb, hxk]
  unfold l1Out
  rw [shapeCast_apply _ ho (ix3 a r q) (ix2 n q) (by
    rw [Shape.rowMajor_val_two, Shape.rowMajor_val_three]
    show (a.val * 3136 + r.val) * 128 + q.val = (a.val * 3136 + r.val) * 128 + q.val
    rfl), rowDist_apply]
  show (Ideal.ofBits .f32 0x00000000#32 + ∑ k : Fin 64, FloatOps.absf (F := Ideal) (φ := .f32)
      (shapeCast Cert.KernelIdeal.S12544x64 x hx (ix2 n k) - w (ix2 k q))) + b (ix1 q) = _
  rw [Ideal.ofBits_zero_f32, zero_add]

end Cert.L1Distance

end
-- ==== Proof.lean ====
/-
  An L1-distance layer. The input `x` (4 × 56 × 56 × 64) is read as 12544 rows of 64 entries; against a table
  `w` (64 × 128) and offsets `b` (128) the result, 4 × 3136 × 128, holds at row n = a·3136 + r and column q
      Σ_k |x[n, k] − w[k, q]|  +  b[q].

  The kernel flattens `x`, walks the rows in 32 blocks of 392 — each point lays its block and the table against one
  another in 392 × 64 × 128, subtracts, takes absolute values, sums the middle axis and adds the offsets — and reads the
  12544 × 128 output back as 4 × 3136 × 128. The reference does the same on the whole 4 × 3136 × 64 × 128 difference at
  once, summing from an explicit zero. On the extended reals both are the one function `l1Out` (Proof/Spec.lean):
  the kernel's blocks are rows of it and cover it (Proof/BlockValue.lean, Proof/ArrayValue.lean), the reference's
  entry at (a, r, q) reads the same entries of `x`, `w` and `b` in the same order, its leading zero being neutral
  (Proof/RefValue.lean). Neither side reorders a sum or moves a factor, so the equality holds for every extended-real
  input and the finiteness of the inputs is never used.

  The three frames are the generated ones (the reference's is its generated run with the result dropped); the kernel's
  idealization rewrote no operation, so there is nothing to preserve.
-/
import proofs.«170642_j31138512896692_1_alg».proof.Defs
import proofs.«170642_j31138512896692_1_alg».proof.Proof.Gen.Kernel
import proofs.«170642_j31138512896692_1_alg».proof.Proof.Gen.Kernel.Skeleton
import proofs.«170642_j31138512896692_1_alg».proof.Proof.Gen.Kernel.Launch
import proofs.«170642_j31138512896692_1_alg».proof.Proof.Gen.Kernel.Points
import proofs.«170642_j31138512896692_1_alg».proof.Proof.Gen.Kernel.Frame
import proofs.«170642_j31138512896692_1_alg».proof.Proof.Gen.KernelIdeal
import proofs.«170642_j31138512896692_1_alg».proof.Proof.Gen.KernelIdeal.Skeleton
import proofs.«170642_j31138512896692_1_alg».proof.Proof.Gen.KernelIdeal.Launch
import proofs.«170642_j31138512896692_1_alg».proof.Proof.Gen.KernelIdeal.Points
import proofs.«170642_j31138512896692_1_alg».proof.Proof.Gen.KernelIdeal.Frame
import proofs.«170642_j31138512896692_1_alg».proof.Proof.Gen.ReferenceIdeal
import proofs.«170642_j31138512896692_1_alg».proof.Proof.Gen.Pre_finite_inputs
import proofs.«170642_j31138512896692_1_alg».proof.Proof.Gen.ReferenceIdeal.Run
import proofs.«170642_j31138512896692_1_alg».proof.Proof.Gen.ReferenceIdeal.Read
import proofs.«170642_j31138512896692_1_alg».proof.Proof.ArrayValue
import proofs.«170642_j31138512896692_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- And the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the three arguments both programs end with the result buffer at `l1Out` of those
    arguments: the kernel by its run read block by block, the reference by its run read stage by stage. -/
theorem algebraic : Cert.algebraic_KernelIdeal_ReferenceIdeal := by
  intro m ρ m' ρ' _ hagree
  refine ⟨_, Cert.L1Distance.kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v10_eq _ _ _).trans (Cert.L1Distance.reference_eq _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
